-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2048x1000 .f32 .bf16
  ∧ IdealRules.truncf_extf.Statement Cert.KernelIdeal.S1x1000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S100 : Shape := ⟨1, ![100]⟩
abbrev S1000x512 : Shape := ⟨2, ![1000, 512]⟩
abbrev S1000 : Shape := ⟨1, ![1000]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg6 : FVec F S1000 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000 .f32 := Host.absf main_arg6
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  main_v23

def fn {F : FTy → Type} [FloatOps F] (main_arg0 : FVec F S131072x512 .f32) (main_arg1 : IVec S131072 32) (main_arg2 : IVec S100 32) (main_arg3 : FVec F S1000x512 .f32) (main_arg4 : FVec F S1000x512 .f32) (main_arg5 : FVec F S1000 .f32) (main_arg6 : FVec F S1000 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1000x512 .f32 := Host.absf main_arg3
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000x512 .f32 := Host.absf main_arg4
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S1000 .f32 := Host.absf main_arg5
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg6 main_v13 main_v16
-- ==== Kernel.lean ====
abbrev S131072x512 : Shape := ⟨2, ![131072, 512]⟩
abbrev S131072 : Shape := ⟨1, ![131072]⟩
abbrev S100 : Shape := ⟨1, ![100]⟩
abbrev S1000x512 : Shape := ⟨2, ![1000, 512]⟩
abbrev S1000 : Shape := ⟨1, ![1000]⟩
abbrev S131072x1 : Shape := ⟨2, ![131072, 1]⟩
abbrev S1x1000 : Shape := ⟨2, ![1, 1000]⟩
abbrev S2048x512 : Shape := ⟨2, ![2048, 512]⟩
abbrev S2048x1 : Shape := ⟨2, ![2048, 1]⟩
abbrev S2048 : Shape := ⟨1, ![2048]⟩
abbrev S2048x1000 : Shape := ⟨2, ![2048, 1000]⟩
abbrev S_ : Shape := ⟨0, ![]⟩
abbrev S1000x1 : Shape := ⟨2, ![1000, 1]⟩
abbrev S100x1 : Shape := ⟨2, ![100, 1]⟩

abbrev nBuf : Space → Nat
  | .hbm => 74
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S100, .i32⟩
  | .hbm, ⟨3, _⟩ => ⟨S1000x512, .f32⟩
  | .hbm, ⟨4, _⟩ => ⟨S1000x512, .f32⟩
  | .hbm, ⟨5, _⟩ => ⟨S1000, .f32⟩
  | .hbm, ⟨6, _⟩ => ⟨S1000, .f32⟩
  | .hbm, ⟨7, _⟩ => ⟨S131072x1, .i32⟩
  | .hbm, ⟨8, _⟩ => ⟨S1000x512, .f32⟩
  | .hbm, ⟨9, _⟩ => ⟨S1x1000, .f32⟩
  | .hbm, ⟨10, _⟩ => ⟨S1000, .f32⟩
  | .hbm, ⟨11, _⟩ => ⟨S_, .f32⟩
  | .hbm, ⟨12, _⟩ => ⟨S1000, .f32⟩
  | .hbm, ⟨13, _⟩ => ⟨S1000, .i1⟩
  | .hbm, ⟨14, _⟩ => ⟨S_, .f32⟩
  | .hbm, ⟨15, _⟩ => ⟨S1000, .f32⟩
  | .hbm, ⟨16, _⟩ => ⟨S1000, .f32⟩
  | .hbm, ⟨17, _⟩ => ⟨S1000x1, .f32⟩
  | .hbm, ⟨18, _⟩ => ⟨S1000x512, .f32⟩
  | .hbm, ⟨19, _⟩ => ⟨S1000x512, .f32⟩
  | .hbm, ⟨20, _⟩ => ⟨S_, .i1⟩
  | .hbm, ⟨21, _⟩ => ⟨S1000, .i1⟩
  | .hbm, ⟨22, _⟩ => ⟨S_, .i32⟩
  | .hbm, ⟨23, _⟩ => ⟨S100, .i32⟩
  | .hbm, ⟨24, _⟩ => ⟨S100, .i1⟩
  | .hbm, ⟨25, _⟩ => ⟨S_, .i32⟩
  | .hbm, ⟨26, _⟩ => ⟨S100, .i32⟩
  | .hbm, ⟨27, _⟩ => ⟨S100, .i32⟩
  | .hbm, ⟨28, _⟩ => ⟨S100, .i32⟩
  | .hbm, ⟨29, _⟩ => ⟨S100x1, .i32⟩
  | .hbm, ⟨30, _⟩ => ⟨S_, .i1⟩
  | .hbm, ⟨31, _⟩ => ⟨S100, .i1⟩
  | .hbm, ⟨32, _⟩ => ⟨S1000, .i1⟩
  | .hbm, ⟨33, _⟩ => ⟨S1000x512, .f32⟩
  | .hbm, ⟨34, _⟩ => ⟨S1000x512, .f32⟩
  | .hbm, ⟨35, _⟩ => ⟨S_, .f32⟩
  | .hbm, ⟨36, _⟩ => ⟨S1000, .f32⟩
  | .hbm, ⟨37, _⟩ => ⟨S_, .f32⟩
  | .hbm, ⟨38, _⟩ => ⟨S1000, .f32⟩
  | .hbm, ⟨39, _⟩ => ⟨S1000, .f32⟩
  | .hbm, ⟨40, _⟩ => ⟨S1000x512, .f32⟩
  | .hbm, ⟨41, _⟩ => ⟨S1000x512, .f32⟩
  | .hbm, ⟨42, _⟩ => ⟨S_, .f32⟩
  | .hbm, ⟨43, _⟩ => ⟨S1000, .f32⟩
  | .hbm, ⟨44, _⟩ => ⟨S_, .f32⟩
  | .hbm, ⟨45, _⟩ => ⟨S1000, .f32⟩
  | .hbm, ⟨46, _⟩ => ⟨S1000, .f32⟩
  | .hbm, ⟨47, _⟩ => ⟨S1000, .i1⟩
  | .hbm, ⟨48, _⟩ => ⟨S_, .f32⟩
  | .hbm, ⟨49, _⟩ => ⟨S1000, .f32⟩
  | .hbm, ⟨50, _⟩ => ⟨S1000, .i1⟩
  | .hbm, ⟨51, _⟩ => ⟨S1000, .i1⟩
  | .hbm, ⟨52, _⟩ => ⟨S1000, .i1⟩
  | .hbm, ⟨53, _⟩ => ⟨S_, .f32⟩
  | .hbm, ⟨54, _⟩ => ⟨S1000, .f32⟩
  | .hbm, ⟨55, _⟩ => ⟨S1000, .i1⟩
  | .hbm, ⟨56, _⟩ => ⟨S1000, .i1⟩
  | .hbm, ⟨57, _⟩ => ⟨S_, .f32⟩
  | .hbm, ⟨58, _⟩ => ⟨S_, .f32⟩
  | .hbm, ⟨59, _⟩ => ⟨S1000, .f32⟩
  | .hbm, ⟨60, _⟩ => ⟨S1000, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1000, .f32⟩
  | .hbm, ⟨66, _⟩ => ⟨S1000, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1000x512, .f32⟩
  | .local _ .vmem, ⟨5, _⟩ => ⟨S1x1000, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_call0_v0 : Ref sig .tc := ⟨.hbm, 58, rfl⟩
abbrev main_call0_v1 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_cst_12 : Ref sig .tc := ⟨.hbm, 63, rfl⟩
abbrev main_call1_v0 : Ref sig .tc := ⟨.hbm, 64, rfl⟩
abbrev main_call1_v1 : Ref sig .tc := ⟨.hbm, 65, rfl⟩
abbrev main_v39 : Ref sig .tc := ⟨.hbm, 66, rfl⟩
abbrev main_cst_13 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_cst_15 : Ref sig .tc := ⟨.hbm, 71, rfl⟩
abbrev main_v42 : Ref sig .tc := ⟨.hbm, 72, rfl⟩
abbrev main_v43 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S131072_S131072x1 : S131072.ShapeCasts S131072x1
  inb_S1000x512_S1000x512_0_0 : ∀ a, (![0, 0] : Fin 2 → Nat) a + S1000x512.size a ≤ S1000x512.size a
  h_S1000x512 : 0 < S1000x512.numel
  inb_S1x1000_S1x1000_0_0 : ∀ a, (![0, 0] : Fin 2 → Nat) a + S1x1000.size a ≤ S1x1000.size a
  h_S1x1000 : 0 < S1x1000.numel
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x1000_d1_w32 : S1x1000.Iotas .tc 32 [1]
  broadcasts_S2048x1_S2048x1000 : S2048x1.Broadcasts S2048x1000
  broadcasts_S1x1000_S2048x1000 : S1x1000.Broadcasts S2048x1000
  natLt_1_32 : 1 < 32
  reduces_S2048x1000_S1000 : S2048x1000.Reduces [0] S1000
  shapeCasts_S1000_S1x1000 : S1000.ShapeCasts S1x1000
  shapeCasts_S1000x512_S1000x512 : S1000x512.ShapeCasts S1000x512
  shapeCasts_S1x1000_S1x1000 : S1x1000.ShapeCasts S1x1000
  shapeCasts_S1x1000_S1000 : S1x1000.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S100 : S_.BroadcastsInDim S100 (![] : Fin 0 → Fin S100.rank)
  bcast_S100_S100x1_0 : S100.BroadcastsInDim S100x1 (![0] : Fin 1 → Fin S100x1.rank)
  reducesTo_S1000x512_S1000_d1 : S1000x512.ReducesTo [1] S1000
  h_S_ : 0 < S_.numel
  reducesTo_S1000_S_d0 : S1000.ReducesTo [0] S_
  dot_S2048x1000_S2048x512_S1000x512_0_0_1_1_n_n_wf : DotDims.WF S2048x1000 S2048x512 S1000x512 [0] [0] [1] [1] [] []
  scatter_S1000_S100x1_S100_n_0_0_1_wf : ScatterDims.WF S1000 S100x1 S100 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x512.size a
  hwx0_2 : ∀ i : grid0.Coords, EltTy.bits .f32 = 32 ∨ (Rect.block (s := S1000x512) S1000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)

variable [Facts₀]

def dot_S2048x1000_S2048x512_S1000x512_0_0_1_1_n_n : DotDims S2048x1000 S2048x512 S1000x512 where
  lhsContracting := [0]
  rhsContracting := [0]
  lhsNonContracting := [1]
  rhsNonContracting := [1]
  lhsBatch := []
  rhsBatch := []
  wf := dot_S2048x1000_S2048x512_S1000x512_0_0_1_1_n_n_wf
def scatter_S1000_S100x1_S100_n_0_0_1 : ScatterDims S1000 S100x1 S100 where
  updateWindowDims := []
  insertedWindowDims := [0]
  scatterDimsToOperandDims := [0]
  indexVectorDim := 1
  wf := scatter_S1000_S100x1_S100_n_0_0_1_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1000x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S100 : Shape := ⟨1, ![100]⟩
abbrev S1000x512 : Shape := ⟨2, ![1000, 512]⟩
abbrev S1000 : Shape := ⟨1, ![1000]⟩
abbrev S_ : Shape := ⟨0, ![]⟩
abbrev S131072x1 : Shape := ⟨2, ![131072, 1]⟩
abbrev S1000x1 : Shape := ⟨2, ![1000, 1]⟩
abbrev S100x1 : Shape := ⟨2, ![100, 1]⟩

abbrev nBuf : Space → Nat
  | .hbm => 90
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S100, .i32⟩
  | .hbm, ⟨3, _⟩ => ⟨S1000x512, .f32⟩
  | .hbm, ⟨4, _⟩ => ⟨S1000x512, .f32⟩
  | .hbm, ⟨5, _⟩ => ⟨S1000, .f32⟩
  | .hbm, ⟨6, _⟩ => ⟨S1000, .f32⟩
  | .hbm, ⟨7, _⟩ => ⟨S131072x512, .f32⟩
  | .hbm, ⟨8, _⟩ => ⟨S_, .f32⟩
  | .hbm, ⟨9, _⟩ => ⟨S131072, .f32⟩
  | .hbm, ⟨10, _⟩ => ⟨S131072x1, .f32⟩
  | .hbm, ⟨11, _⟩ => ⟨S131072x1, .f32⟩
  | .hbm, ⟨12, _⟩ => ⟨S_, .f32⟩
  | .hbm, ⟨13, _⟩ => ⟨S131072x1, .f32⟩
  | .hbm, ⟨14, _⟩ => ⟨S131072x1, .f32⟩
  | .hbm, ⟨15, _⟩ => ⟨S131072x512, .f32⟩
  | .hbm, ⟨16, _⟩ => ⟨S131072x512, .f32⟩
  | .hbm, ⟨17, _⟩ => ⟨S_, .f32⟩
  | .hbm, ⟨18, _⟩ => ⟨S1000x512, .f32⟩
  | .hbm, ⟨19, _⟩ => ⟨S131072x1, .i32⟩
  | .hbm, ⟨20, _⟩ => ⟨S1000x512, .f32⟩
  | .hbm, ⟨21, _⟩ => ⟨S_, .f32⟩
  | .hbm, ⟨22, _⟩ => ⟨S131072, .f32⟩
  | .hbm, ⟨23, _⟩ => ⟨S_, .f32⟩
  | .hbm, ⟨24, _⟩ => ⟨S1000, .f32⟩
  | .hbm, ⟨25, _⟩ => ⟨S131072x1, .i32⟩
  | .hbm, ⟨26, _⟩ => ⟨S1000, .f32⟩
  | .hbm, ⟨27, _⟩ => ⟨S_, .f32⟩
  | .hbm, ⟨28, _⟩ => ⟨S1000, .f32⟩
  | .hbm, ⟨29, _⟩ => ⟨S1000, .i1⟩
  | .hbm, ⟨30, _⟩ => ⟨S_, .f32⟩
  | .hbm, ⟨31, _⟩ => ⟨S1000, .f32⟩
  | .hbm, ⟨32, _⟩ => ⟨S1000, .f32⟩
  | .hbm, ⟨33, _⟩ => ⟨S1000x1, .f32⟩
  | .hbm, ⟨34, _⟩ => ⟨S1000x512, .f32⟩
  | .hbm, ⟨35, _⟩ => ⟨S1000x512, .f32⟩
  | .hbm, ⟨36, _⟩ => ⟨S_, .i1⟩
  | .hbm, ⟨37, _⟩ => ⟨S1000, .i1⟩
  | .hbm, ⟨38, _⟩ => ⟨S_, .i32⟩
  | .hbm, ⟨39, _⟩ => ⟨S100, .i32⟩
  | .hbm, ⟨40, _⟩ => ⟨S100, .i1⟩
  | .hbm, ⟨41, _⟩ => ⟨S_, .i32⟩
  | .hbm, ⟨42, _⟩ => ⟨S100, .i32⟩
  | .hbm, ⟨43, _⟩ => ⟨S100, .i32⟩
  | .hbm, ⟨44, _⟩ => ⟨S100, .i32⟩
  | .hbm, ⟨45, _⟩ => ⟨S100x1, .i32⟩
  | .hbm, ⟨46, _⟩ => ⟨S_, .i1⟩
  | .hbm, ⟨47, _⟩ => ⟨S100, .i1⟩
  | .hbm, ⟨48, _⟩ => ⟨S1000, .i1⟩
  | .hbm, ⟨49, _⟩ => ⟨S1000x512, .f32⟩
  | .hbm, ⟨50, _⟩ => ⟨S1000x512, .f32⟩
  | .hbm, ⟨51, _⟩ => ⟨S_, .f32⟩
  | .hbm, ⟨52, _⟩ => ⟨S1000, .f32⟩
  | .hbm, ⟨53, _⟩ => ⟨S_, .f32⟩
  | .hbm, ⟨54, _⟩ => ⟨S1000, .f32⟩
  | .hbm, ⟨55, _⟩ => ⟨S1000, .f32⟩
  | .hbm, ⟨56, _⟩ => ⟨S1000x512, .f32⟩
  | .hbm, ⟨57, _⟩ => ⟨S1000x512, .f32⟩
  | .hbm, ⟨58, _⟩ => ⟨S_, .f32⟩
  | .hbm, ⟨59, _⟩ => ⟨S1000, .f32⟩
  | .hbm, ⟨60, _⟩ => ⟨S_, .f32⟩
  | .hbm, ⟨61, _⟩ => ⟨S1000, .f32⟩
  | .hbm, ⟨62, _⟩ => ⟨S1000, .f32⟩
  | .hbm, ⟨63, _⟩ => ⟨S1000, .i1⟩
  | .hbm, ⟨64, _⟩ => ⟨S_, .f32⟩
  | .hbm, ⟨65, _⟩ => ⟨S1000, .f32⟩
  | .hbm, ⟨66, _⟩ => ⟨S1000, .i1⟩
  | .hbm, ⟨67, _⟩ => ⟨S1000, .i1⟩
  | .hbm, ⟨68, _⟩ => ⟨S1000, .i1⟩
  | .hbm, ⟨69, _⟩ => ⟨S_, .f32⟩
  | .hbm, ⟨70, _⟩ => ⟨S1000, .f32⟩
  | .hbm, ⟨71, _⟩ => ⟨S1000, .i1⟩
  | .hbm, ⟨72, _⟩ => ⟨S1000, .i1⟩
  | .hbm, ⟨73, _⟩ => ⟨S_, .f32⟩
  | .hbm, ⟨74, _⟩ => ⟨S_, .f32⟩
  | .hbm, ⟨75, _⟩ => ⟨S1000, .f32⟩
  | .hbm, ⟨76, _⟩ => ⟨S1000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1000, .f32⟩
  | .hbm, ⟨82, _⟩ => ⟨S1000, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_14 : Ref sig .tc := ⟨.hbm, 73, rfl⟩
abbrev main_call1_v0 : Ref sig .tc := ⟨.hbm, 74, rfl⟩
abbrev main_call1_v1 : Ref sig .tc := ⟨.hbm, 75, rfl⟩
abbrev main_v46 : Ref sig .tc := ⟨.hbm, 76, rfl⟩
abbrev main_cst_15 : Ref sig .tc := ⟨.hbm, 77, rfl⟩
abbrev main_v47 : Ref sig .tc := ⟨.hbm, 78, rfl⟩
abbrev main_cst_16 : Ref sig .tc := ⟨.hbm, 79, rfl⟩
abbrev main_call2_v0 : Ref sig .tc := ⟨.hbm, 80, rfl⟩
abbrev main_call2_v1 : Ref sig .tc := ⟨.hbm, 81, rfl⟩
abbrev main_v48 : Ref sig .tc := ⟨.hbm, 82, rfl⟩
abbrev main_cst_17 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_cst_19 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x512_0_1 : S131072x1.BroadcastsInDim S131072x512 (![0, 1] : Fin 2 → Fin S131072x512.rank)
  bcast_S_S1000x512 : S_.BroadcastsInDim S1000x512 (![] : Fin 0 → Fin S1000x512.rank)
  bcast_S_S131072 : S_.BroadcastsInDim S131072 (![] : Fin 0 → Fin S131072.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S100 : S_.BroadcastsInDim S100 (![] : Fin 0 → Fin S100.rank)
  bcast_S100_S100x1_0 : S100.BroadcastsInDim S100x1 (![0] : Fin 1 → Fin S100x1.rank)
  reducesTo_S1000x512_S1000_d1 : S1000x512.ReducesTo [1] S1000
  reducesTo_S1000_S_d0 : S1000.ReducesTo [0] S_
  scatter_S1000x512_S131072x1_S131072x512_1_0_0_1_wf : ScatterDims.WF S1000x512 S131072x1 S131072x512 [1] [0] [0] 1
  scatter_S1000_S131072x1_S131072_n_0_0_1_wf : ScatterDims.WF S1000 S131072x1 S131072 [] [0] [0] 1
  scatter_S1000_S100x1_S100_n_0_0_1_wf : ScatterDims.WF S1000 S100x1 S100 [] [0] [0] 1

variable [Facts₀]

def scatter_S1000x512_S131072x1_S131072x512_1_0_0_1 : ScatterDims S1000x512 S131072x1 S131072x512 where
  updateWindowDims := [1]
  insertedWindowDims := [0]
  scatterDimsToOperandDims := [0]
  indexVectorDim := 1
  wf := scatter_S1000x512_S131072x1_S131072x512_1_0_0_1_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf
def scatter_S1000_S100x1_S100_n_0_0_1 : ScatterDims S1000 S100x1 S100 where
  updateWindowDims := []
  insertedWindowDims := [0]
  scatterDimsToOperandDims := [0]
  indexVectorDim := 1
  wf := scatter_S1000_S100x1_S100_n_0_0_1_wf

class Facts : Prop extends Facts₀ where

variable [Facts]
-- ==== Proof.LossTail.lean ====
/-
  The loss as a function of the class sums and class counts.

  From the class sums S (1000 classes by 512 columns) and the class counts C the programs go on the same way. A class
  is present when its count is positive; its mean is its sum divided by its count, the count floored at one. A mask
  marks the classes named by the list of current classes (a negative entry of the list counts from the end). For a
  table P of prototypes the squared error of a class is the mean over the columns of (mean - P)². One part of the loss
  adds the squared errors of the classes that are marked, present and have a positive prototype count; the loss is
  one half of the part taken against the first table and its counts plus three tenths (as single-precision constants)
  of the part taken against the second.
-/
import proofs.«170232_j34806414967394_1_alg».proof.Proof.Gen.ReferenceIdeal

noncomputable section

namespace Cert.LossTail

open Idealize.ShloMosaic Cert.ReferenceIdeal Cert.ReferenceIdeal.Gen

variable {F : FTy → Type} [FloatOps F]

/-- The classes named by the list of current classes: an entry below zero names the class that many from the end. -/
def marked (x2 : (⟨S100, .i32⟩ : BufTy).Contents (Elt F)) : (⟨S1000, .i1⟩ : BufTy).Contents (Elt F) :=
  Host.scatter scatter_S1000_S100x1_S100_n_0_0_1 (fun _ b => b) (broadcastInDim S1000 ![] bcast_S_S1000 (constantI S_ 1 0#1))
    (broadcastInDim S100x1 ![0] bcast_S100_S100x1_0
      (select (cmpi .slt x2 (broadcastInDim S100 ![] bcast_S_S100 (constantI S_ 32 0#32)))
        (addi x2 (broadcastInDim S100 ![] bcast_S_S100 (constantI S_ 32 1000#32))) x2))
    (broadcastInDim S100 ![] bcast_S_S100 (constantI S_ 1 1#1))

/-- A class is present when its count is positive. -/
def present (C : (⟨S1000, .f32⟩ : BufTy).Contents (Elt F)) : (⟨S1000, .i1⟩ : BufTy).Contents (Elt F) :=
  cmpf .ogt C (broadcastInDim S1000 ![] bcast_S_S1000 (constant S_ .f32 0x00000000#32))

/-- The class means: each class's sum over its count, the count floored at one. -/
def classMean (S : (⟨S1000x512, .f32⟩ : BufTy).Contents (Elt F)) (C : (⟨S1000, .f32⟩ : BufTy).Contents (Elt F)) :
    (⟨S1000x512, .f32⟩ : BufTy).Contents (Elt F) :=
  Host.divf S (broadcastInDim S1000x512 ![0, 1] bcast_S1000x1_S1000x512_0_1 (broadcastInDim S1000x1 ![0] bcast_S1000_S1000x1_0
    (maximumf C (broadcastInDim S1000 ![] bcast_S_S1000 (constant S_ .f32 0x3F800000#32)))))

/-- The squared error of each class against a table of prototypes: the mean over the columns of (mean - P)². -/
def sqErr (S : (⟨S1000x512, .f32⟩ : BufTy).Contents (Elt F)) (C : (⟨S1000, .f32⟩ : BufTy).Contents (Elt F))
    (P : (⟨S1000x512, .f32⟩ : BufTy).Contents (Elt F)) : (⟨S1000, .f32⟩ : BufTy).Contents (Elt F) :=
  Host.divf (Host.reduceAdd (mulf (subf (classMean S C) P) (subf (classMean S C) P)) (constant S_ .f32 0x00000000#32)
      reducesTo_S1000x512_S1000_d1 h_S_)
    (broadcastInDim S1000 ![] bcast_S_S1000 (constant S_ .f32 0x44000000#32))

/-- One part of the loss: the squared errors of the classes that are marked, present and have a positive prototype
    count `K`, added up. -/
def part (S : (⟨S1000x512, .f32⟩ : BufTy).Contents (Elt F)) (C : (⟨S1000, .f32⟩ : BufTy).Contents (Elt F))
    (x2 : (⟨S100, .i32⟩ : BufTy).Contents (Elt F)) (P : (⟨S1000x512, .f32⟩ : BufTy).Contents (Elt F))
    (K : (⟨S1000, .f32⟩ : BufTy).Contents (Elt F)) : (⟨S_, .f32⟩ : BufTy).Contents (Elt F) :=
  Host.reduceAdd
    (select (andi (andi (marked x2) (present C)) (cmpf .ogt K (broadcastInDim S1000 ![] bcast_S_S1000 (constant S_ .f32 0x00000000#32))))
      (sqErr S C P) (broadcastInDim S1000 ![] bcast_S_S1000 (id (constant S_ .f32 0x00000000#32))))
    (constant S_ .f32 0x00000000#32) reducesTo_S1000_S_d0 h_S_

/-- The loss: half the part against the first table plus three tenths of the part against the second. -/
def loss (S : (⟨S1000x512, .f32⟩ : BufTy).Contents (Elt F)) (C : (⟨S1000, .f32⟩ : BufTy).Contents (Elt F))
    (x2 : (⟨S100, .i32⟩ : BufTy).Contents (Elt F)) (x3 x4 : (⟨S1000x512, .f32⟩ : BufTy).Contents (Elt F))
    (x5 x6 : (⟨S1000, .f32⟩ : BufTy).Contents (Elt F)) : (⟨S_, .f32⟩ : BufTy).Contents (Elt F) :=
  addf (mulf (constant S_ .f32 0x3F000000#32) (part S C x2 x3 x5)) (mulf (constant S_ .f32 0x3E99999A#32) (part S C x2 x4 x6))

end Cert.LossTail

end
-- ==== Proof.KernelTail.lean ====
/-
  The kernel program after its region: the loss of what the region left.

  When the region ends, the class sums are in one result array and the class counts, as a single row, in another. The
  lines that follow lay the row out as a vector and compute the loss from the two and from the other five arguments,
  which nothing has written.
-/
import proofs.«170232_j34806414967394_1_alg».proof.Proof.Gen.KernelIdeal.Frame
import proofs.«170232_j34806414967394_1_alg».proof.Proof.LossTail
import Idealize.ShloMosaic.PureOps.Ideal
import Idealize.ShloMosaic.Lib.StableHlo.Run

noncomputable section

open Idealize.ShloMosaic Idealize.ShloMosaic.TcCoe Idealize.SL.Sem Idealize.ShloMosaic.StableHlo

namespace Cert.KernelTail

open Cert.KernelIdeal Cert.KernelIdeal.Gen

variable {F : FTy → Type} [FloatOps F] (m : (ℓ : Loc nD τ sig) → Buf (Elt F) ℓ)

/-- What the lines after the region find: the region's arrays as it left them, every other buffer as it was. -/
abbrev found (c : Dev nD) : Valuation τ sig (Elt F) :=
  Pipeline.withArrays spec0 c (V0 m c) fun w => (dats m 0 c).arrAt w cfg0.N

set_option maxRecDepth 8192 in
set_option maxHeartbeats 4000000 in
/-- The program's result is the loss of the two result arrays the region left and the other arguments as found. -/
theorem result_eq (c : Dev nD) :
    Pipeline.afterTail₀ cfgs (dats m) 0 (V0 m) [hostOps1, hostOps1_1, hostOps1_2, hostOps1_3, hostOps1_4] c main_v43
      = Cert.LossTail.loss (F := F) (found m c (Proc.devRef .tc main_v1_0))
          (shapeCast S1000 (found m c (Proc.devRef .tc main_v1_1)) shapeCasts_S1x1000_S1000)
          (found m c (Proc.devRef .tc main_arg2)) (found m c (Proc.devRef .tc main_arg3))
          (found m c (Proc.devRef .tc main_arg4)) (found m c (Proc.devRef .tc main_arg5))
          (found m c (Proc.devRef .tc main_arg6)) := by
  unfold Pipeline.afterTail₀
  simp only [hostOps1, hostOps1_1, hostOps1_2, hostOps1_3, hostOps1_4, List.flatten_cons, List.flatten_nil, List.append_nil,
    List.cons_append, List.nil_append]
  after_results_simp
  simp only [TRef.ofBuf, TRef.toBuf, cast_eq]
  rfl

end Cert.KernelTail

end
-- ==== Proof.ClassStats.lean ====
/-
  Per-class sums and counts of unit-normalised rows, over the extended reals.

  A feature matrix X has N rows of width D and every row n carries a label word. Row n is first divided by its Euclidean
  norm, the norm floored at a small positive constant: entry (n, d) becomes X(n, d) / max(√(Σₖ X(n, k)²), floor). Class a
  then collects the rows whose label, read as a signed integer, is a: its sum at column d adds the normalised entries
  (n, d) of those rows and its count adds a one for each of them. A label outside the class range names no class, so its
  row is in no sum.

  Both are sums over the rows in any order. Cut into stretches of consecutive rows, the sum over the first n + 1
  stretches is the sum over the first n stretches plus the sum over stretch n + 1: that is how a running total taken
  stretch by stretch reaches the whole sum.
-/
import Idealize.ShloMosaic.Lib.ValueIdx
import Idealize.ShloMosaic.PureOps.Ideal
import Mathlib.Algebra.BigOperators.Group.Finset.Basic
import Mathlib.Algebra.BigOperators.Fin

noncomputable section

open scoped BigOperators

namespace Cert.ClassStats

open Idealize.ShloMosaic Idealize.ShloMosaic.ValueIdx

/-- The floor under a row's norm: the single-precision number nearest 10⁻¹². -/
def normFloor : EReal := Ideal.ofBits .f32 0x2B8CBCCC#32

/-- Entry `d` of row `n` divided by the row's Euclidean norm, the norm floored at `normFloor`. -/
def unitEntry {N D : Nat} (X : (⟨2, ![N, D]⟩ : Shape).Idx → EReal) (n : Fin N) (d : Fin D) : EReal :=
  Ideal.div (X (ix2 n d)) (max (Ideal.sqrt (∑ k : Fin D, X (ix2 n k) * X (ix2 n k))) normFloor)

/-- A row's normalised entry depends on that row alone: two matrices that agree on a row (at possibly different row
    numbers) give it the same normalised entries. -/
theorem unitEntry_congr {N N' D : Nat} (X : (⟨2, ![N, D]⟩ : Shape).Idx → EReal) (X' : (⟨2, ![N', D]⟩ : Shape).Idx → EReal)
    (n : Fin N) (n' : Fin N') (h : ∀ k : Fin D, X (ix2 n k) = X' (ix2 n' k)) (d : Fin D) :
    unitEntry X n d = unitEntry X' n' d := by
  unfold unitEntry
  rw [h d]
  congr 3
  exact Finset.sum_congr rfl fun k _ => by rw [h k]

/-- What row `i` adds to class `a`'s sum at column `d` (nothing beyond the last row). -/
def rowTerm {N D : Nat} (X : (⟨2, ![N, D]⟩ : Shape).Idx → EReal) (L : IVec (⟨1, ![N]⟩ : Shape) 32) (a : Nat) (d : Fin D)
    (i : Nat) : EReal :=
  if h : i < N then (if (L (ix1 ⟨i, h⟩)).toInt = (a : ℤ) then unitEntry X ⟨i, h⟩ d else 0) else 0

/-- What row `i` adds to class `a`'s count. -/
def cntTerm {N : Nat} (L : IVec (⟨1, ![N]⟩ : Shape) 32) (a : Nat) (i : Nat) : EReal :=
  if h : i < N then (if (L (ix1 ⟨i, h⟩)).toInt = (a : ℤ) then 1 else 0) else 0

/-- Class sums: entry (a, d) adds the normalised entries (n, d) of the rows labelled a. -/
def classSum {N D C : Nat} (X : (⟨2, ![N, D]⟩ : Shape).Idx → EReal) (L : IVec (⟨1, ![N]⟩ : Shape) 32) :
    (⟨2, ![C, D]⟩ : Shape).Idx → EReal :=
  fun j => ∑ n : Fin N, if (L (ix1 n)).toInt = ((j 0).val : ℤ) then unitEntry X n (j 1) else 0

/-- Class counts: entry a counts the rows labelled a. -/
def classCnt {N C : Nat} (L : IVec (⟨1, ![N]⟩ : Shape) 32) : (⟨1, ![C]⟩ : Shape).Idx → EReal :=
  fun j => ∑ n : Fin N, if (L (ix1 n)).toInt = ((j 0).val : ℤ) then (1 : EReal) else 0

/-- The sum of the row terms over all row numbers is the class sum's entry. -/
theorem sum_rowTerm {N D C : Nat} (X : (⟨2, ![N, D]⟩ : Shape).Idx → EReal) (L : IVec (⟨1, ![N]⟩ : Shape) 32)
    (a : Fin C) (d : Fin D) :
    ∑ i ∈ Finset.range N, rowTerm X L a.val d i = classSum (C := C) X L (ix2 a d) := by
  rw [Finset.sum_range]
  unfold classSum
  refine Finset.sum_congr rfl fun n _ => ?_
  unfold rowTerm
  rw [dif_pos n.isLt]
  rfl

/-- The sum of the count terms over all row numbers is the class count's entry. -/
theorem sum_cntTerm {N C : Nat} (L : IVec (⟨1, ![N]⟩ : Shape) 32) (a : Fin C) :
    ∑ i ∈ Finset.range N, cntTerm L a.val i = classCnt (C := C) L (ix1 a) := by
  rw [Finset.sum_range]
  unfold classCnt
  refine Finset.sum_congr rfl fun n _ => ?_
  unfold cntTerm
  rw [dif_pos n.isLt]
  rfl

/-- A running total over stretches of `B` consecutive rows: the first `n + 1` stretches are the first `n` and then
    stretch `n`, whose rows are `B * n + r` for `r` below `B`. -/
theorem sum_stretch_succ (f : Nat → EReal) (B n : Nat) :
    ∑ i ∈ Finset.range (B * (n + 1)), f i = ∑ i ∈ Finset.range (B * n), f i + ∑ r : Fin B, f (B * n + r.val) := by
  rw [Nat.mul_succ, Finset.sum_range_add]
  congr 1
  exact Finset.sum_range (fun x => f (B * n + x))

/-- The first stretch alone. -/
theorem sum_stretch_zero (f : Nat → EReal) (B : Nat) :
    ∑ i ∈ Finset.range (B * (0 + 1)), f i = ∑ r : Fin B, f (B * 0 + r.val) := by
  rw [sum_stretch_succ, Nat.mul_zero, Finset.range_zero, Finset.sum_empty, zero_add]

/-- A label word names class `a` (below 2³¹) exactly when it is the word of `a`. -/
theorem word_eq_iff (w : BitVec 32) (a : Nat) (ha : a < 2147483648) : w = BitVec.ofNat 32 a ↔ w.toInt = (a : ℤ) := by
  have hmod : a % 2 ^ 32 = a := Nat.mod_eq_of_lt (by omega)
  constructor
  · rintro rfl
    rw [BitVec.toInt_eq_toNat_cond, BitVec.toNat_ofNat, hmod]
    split <;> omega
  · intro h
    apply BitVec.eq_of_toInt_eq
    rw [h, BitVec.toInt_eq_toNat_cond, BitVec.toNat_ofNat, hmod]
    split <;> omega

end Cert.ClassStats

end
-- ==== Proof.LibProductTN.lean ====
/-
  The transpose of a matrix times another, over the extended reals.

  Entry (a, b) of Aᵀ·B, for a k×r matrix A and a k×n matrix B, is the sum over the shared row coordinate c of
  A(c, a) · B(c, b). Addition of extended reals is commutative and associative, so this is a plain finite sum: no order
  of summation is left in it and nothing asks that an entry be finite.

  The matrix unit forms such a product when both operands are contracted along axis 0 (weights stored input-major, the
  activations stored feature-major: the product comes out feature-major with no transpose) and adds it to an accumulator;
  into a zero accumulator it leaves exactly that entry (`matmul_zero_apply`), whatever float formats the factors were
  narrowed to on the way, a change of format being the identity at the ideal values. The dimension numbers are given as a
  record equal to the literal one, so that a program's own record fits.
-/
import Idealize.ShloMosaic.Lib.ValueIdx
import Idealize.ShloMosaic.PureOps.Ideal.Laws

noncomputable section

namespace ProductTN

open Idealize.ShloMosaic Idealize.ShloMosaic.ValueIdx

variable {k r n : Nat}

/-- Entry (a, b) of Aᵀ·B. -/
def entry (A : (⟨2, ![k, r]⟩ : Shape).Idx → EReal) (B : (⟨2, ![k, n]⟩ : Shape).Idx → EReal) (a : Fin r) (b : Fin n) : EReal :=
  ∑ c : Fin k, A (ix2 c a) * B (ix2 c b)

/-- The matrix unit's product of a k×r by a k×n operand, both contracted along their first axis, accumulated into a
    zero block and read at (a, b), is that entry. -/
theorem matmul_zero_apply {φ₁ φ₂ : FTy}
    (d : DotDims ⟨2, ![k, r]⟩ ⟨2, ![k, n]⟩ ⟨2, ![r, n]⟩)
    (w : DotDims.WF ⟨2, ![k, r]⟩ ⟨2, ![k, n]⟩ ⟨2, ![r, n]⟩ [0] [0] [1] [1] [] [])
    (hd : d = ⟨[0], [0], [1], [1], [], [], w⟩)
    (prec : Option ContractPrecision) (A : FVec Ideal ⟨2, ![k, r]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  subst hd
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, r]⟩ ⟨2, ![k, n]⟩ ⟨2, ![r, n]⟩) k rfl rfl c
  have l2 : (⟨[0], [0], [1], [1], [], [], w⟩ : DotDims ⟨2, ![k, r]⟩ ⟨2, ![k, n]⟩ ⟨2, ![r, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, r]⟩ ⟨2, ![k, n]⟩ ⟨2, ![r, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end ProductTN

end
-- ==== Proof.KernelPayload.lean ====
import proofs.«170232_j34806414967394_1_alg».proof.Proof.Gen.KernelIdeal.Skeleton
import proofs.«170232_j34806414967394_1_alg».proof.Proof.ClassStats
import proofs.«170232_j34806414967394_1_alg».proof.Proof.LibProductTN
import Idealize.ShloMosaic.Lib.ValueIdx
import Idealize.ShloMosaic.Lib.ValueLayout
import Idealize.ShloMosaic.Lib.Pipeline.Value
import Idealize.ShloMosaic.PureOps.Ideal.Laws
noncomputable section
namespace Cert.KernelBody
open Idealize.ShloMosaic Idealize.ShloMosaic.ValueIdx Cert.KernelIdeal Cert.KernelIdeal.Gen Cert.ClassStats
open scoped BigOperators

/-!
  The kernel body's two stored values, read at one entry.

  One step of the kernel holds a stretch of 2048 rows X (2048 × 512) with their label words L (2048 × 1), and the running
  class sums S (1000 × 512) and class counts N (1 × 1000). It stores S + Hᵀ·U and N + (column sums of H), where

  * H (2048 × 1000) is the one-hot matrix of the labels: H(r, a) is one when row r's label word is the word of a — which, for
    a below 2³¹, is to say that the label read as a signed integer is a — and zero otherwise (the comparison's bit, widened
    and converted, is exactly 1 or 0);
  * U (2048 × 512) is the stretch with each row divided by its Euclidean norm floored at the constant: U(r, d) is
    X(r, d) / max(√(Σₖ X(r, k)²), floor), the row's sum of squares being taken along the row, set in a column, and spread
    back over the row's 512 entries.

  Entry (a, d) of Hᵀ·U is Σᵣ H(r, a) · U(r, d); a factor one leaves U(r, d), a factor zero leaves zero, so the sum adds the
  normalised entries (r, d) of the rows labelled a. Column a of H summed over the rows counts those rows. A change of float
  format is the identity on the extended reals, so the narrowing of both factors before the product changes nothing.

  On the first step the two running totals are set to zero: the other two stored values are the zero splat.
-/

variable {α : Type}

/-- A vector `[a]` cast to a column `[a, 1]` reads, at `(i, u)`, the operand at `i`. -/
theorem vector_as_column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem column_along_rows_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of "x equals y", widened and read as a signed integer, is one when the words agree and zero otherwise. -/
theorem sitofp_eq_word (x y : BitVec 32) :
    (FloatOps.sitofp (F := Ideal) .f32 ((IntOp.cmpi .eq x y).setWidth 32) : EReal) = if x = y then 1 else 0 := by
  by_cases h : x = y
  · subst h
    rw [if_pos rfl]
    show (((((IntOp.cmpi .eq x x).setWidth 32).toInt : ℝ)) : EReal) = 1
    simp [IntOp.cmpi]
  · rw [if_neg h]
    show (((((IntOp.cmpi .eq x y).setWidth 32).toInt : ℝ)) : EReal) = 0
    have hb : (x == y) = false := by simpa using h
    simp [IntOp.cmpi, hb]

/-- The one-hot entry at row `c` and class `a`: one when row `c`'s label is `a`, zero otherwise. -/
theorem onehot_apply (v13 : Vec Ideal S2048x1 .i32) (c : Fin 2048) (a : Fin 1000) :
    k0_pay3 (F := Ideal) v13 (ix2 c a) = if (v13 (ix2 c (0 : Fin 1))).toInt = (a.val : ℤ) then 1 else 0 := by
  unfold k0_pay3
  show FloatOps.sitofp (F := Ideal) .f32 ((IntOp.cmpi .eq
      (broadcastTo S2048x1000 (shapeCast S2048x1 v13 shapeCasts_S2048x1_S2048x1) broadcasts_S2048x1_S2048x1000 (ix2 c a))
      (broadcastTo S2048x1000 (iota .tc S1x1000 32 [1] iota_S1x1000_d1_w32) broadcasts_S1x1000_S2048x1000 (ix2 c a))).setWidth 32) = _
  rw [shapeCast_self, column_along_rows_apply, broadcastTo_1b_ab_apply, iota_single_apply, sitofp_eq_word]
  show (if v13 (ix2 c (0 : Fin 1)) = BitVec.ofNat 32 a.val then (1 : EReal) else 0) = _
  exact if_congr (word_eq_iff _ a.val (by have := a.isLt; omega)) rfl rfl

/-- Row `c` divided by its floored norm, read at column `d`. -/
theorem normalised_apply (v3 : FVec Ideal S2048x512 .f32) (c : Fin 2048) (d : Fin 512) :
    divf v3 (broadcastTo S2048x512 (maximumf (sqrt (shapeCast S2048x1 (multiReduction (F := Ideal) .add [1] S2048 (mulf v3 v3) 0x00000000#32 reduces_S2048x512_S2048 (.inl rfl) rfl) shapeCasts_S2048_S2048x1)) (broadcast S2048x1 (Scalar.ofBits .f32 0x2B8CBCCC#32))) broadcasts_S2048x1_S2048x512) (ix2 c d)
      = unitEntry v3 c d := by
  rw [divf_apply, column_along_rows_apply, maximumf_apply, broadcast_apply]
  show Ideal.div (v3 (ix2 c d)) (max (Ideal.sqrt (shapeCast S2048x1 (multiReduction (F := Ideal) .add [1] S2048 (mulf v3 v3) 0x00000000#32 reduces_S2048x512_S2048 (.inl rfl) rfl) shapeCasts_S2048_S2048x1 (ix2 c (0 : Fin 1)))) normFloor) = _
  rw [vector_as_column_apply]
  unfold unitEntry
  refine congrArg (fun s => Ideal.div (v3 (ix2 c d)) (max (Ideal.sqrt s) normFloor)) ?_
  refine (Ideal.multiReduction_add_single (mulf v3 v3) 0x00000000#32 reduces_S2048x512_S2048 (.inl rfl) rfl (ix1 c)).trans ?_
  refine Finset.sum_congr rfl fun k _ => ?_
  have hl : reduces_S2048x512_S2048.lift (ix1 c) k = ix2 c k := by
    funext ax
    apply Fin.ext
    match ax with
    | ⟨0, _⟩ => rfl
    | ⟨1, _⟩ => rfl
  rw [hl]
  rfl

theorem pay1_apply (j : S1000x512.Idx) : k0_pay1 (F := Ideal) j = 0 := by
  unfold k0_pay1
  exact Ideal.ofBits_zero_f32

theorem pay2_apply (j : S1x1000.Idx) : k0_pay2 (F := Ideal) j = 0 := by
  unfold k0_pay2
  exact Ideal.ofBits_zero_f32

theorem pay4_apply (v3 : Vec Ideal S2048x512 .f32) (v13 : Vec Ideal S2048x1 .i32) (v28 : Vec Ideal S1000x512 .f32) (a : Fin 1000) (d : Fin 512) :
    k0_pay4 (F := Ideal) v3 v13 v28 (ix2 a d)
      = v28 (ix2 a d) + ∑ r : Fin 2048, if (v13 (ix2 r (0 : Fin 1))).toInt = (a.val : ℤ) then unitEntry v3 r d else 0 := by
  unfold k0_pay4
  refine (addf_apply _ _ _).trans ?_
  rw [shapeCast_self]
  refine congrArg (v28 (ix2 a d) + ·) ?_
  refine (ProductTN.matmul_zero_apply dot_S2048x1000_S2048x512_S1000x512_0_0_1_1_n_n
    dot_S2048x1000_S2048x512_S1000x512_0_0_1_1_n_n_wf rfl none _ _ a d).trans ?_
  unfold ProductTN.entry
  refine Finset.sum_congr rfl fun c _ => ?_
  rw [truncf_apply, truncf_apply, onehot_apply, normalised_apply]
  split
  · exact one_mul _
  · exact zero_mul _

theorem pay5_apply (v13 : Vec Ideal S2048x1 .i32) (v32 : Vec Ideal S1x1000 .f32) (a : Fin 1000) :
    k0_pay5 (F := Ideal) v13 v32 (ix2 (0 : Fin 1) a)
      = v32 (ix2 (0 : Fin 1) a) + ∑ r : Fin 2048, if (v13 (ix2 r (0 : Fin 1))).toInt = (a.val : ℤ) then (1 : EReal) else 0 := by
  unfold k0_pay5
  refine (addf_apply _ _ _).trans ?_
  rw [shapeCast_self]
  refine congrArg (v32 (ix2 (0 : Fin 1) a) + ·) ?_
  rw [shapeCast_a_1a_apply]
  refine (Ideal.multiReduction_add_single (k0_pay3 (F := Ideal) v13) 0x00000000#32 reduces_S2048x1000_S1000
    (.inl rfl) rfl (ix1 a)).trans ?_
  refine Finset.sum_congr rfl fun r _ => ?_
  have hl : reduces_S2048x1000_S1000.lift (ix1 a) r = ix2 r a := by
    funext ax
    apply Fin.ext
    match ax with
    | ⟨0, _⟩ => rfl
    | ⟨1, _⟩ => rfl
  rw [hl]
  exact onehot_apply v13 r a

end Cert.KernelBody

end
-- ==== Proof.KernelPieces.lean ====
/-
  What one grid point leaves in the two accumulators.

  At the first point the body clears both accumulators, reads them back and adds the block's contribution: it leaves the
  contribution added to zero. At every later point it reads what the point before left and adds the block's
  contribution to that. In both cases each accumulator ends with one store that covers it whole, so what it holds is
  that store's value.
-/
import proofs.«170232_j34806414967394_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelPieces

open Cert.KernelIdeal Cert.KernelIdeal.Gen

variable {F : FTy → Type} [FloatOps F]

theorem hz : (![0, 0] : Fin 2 → Nat) = fun _ => 0 := funext fun a => by fin_cases a <;> rfl

/-- A later point leaves in the class-sum accumulator, which held `xo2`, the block's contribution added to `xo2`. -/
theorem sum_later (c : Dev nD) (i : grid0.Coords) (a1 : Memref sig .tc .vmem S2048x512 .f32) (h1 : a1.IsWhole)
    (a2 : Memref sig .tc .vmem S2048x1 .i32) (h2 : a2.IsWhole) (a3 : Memref sig .tc .vmem S1000x512 .f32) (h3 : a3.IsWhole)
    (a4 : Memref sig .tc .vmem S1x1000 .f32) (h4 : a4.IsWhole) (hc : ¬cond0_0 i)
    (x0 : Vec F S2048x512 .f32) (x1 : Vec F S2048x1 .i32) (xo2 : Vec F S1000x512 .f32) (xo3 : Vec F S1x1000 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, View.ld_unit_zero (S := S2048x512) hz,
    View.ld_unit_zero (S := S2048x1) hz, View.ld_unit_zero (S := S1000x512) hz]

/-- A later point leaves in the class-count accumulator, which held `xo3`, the block's counts added to `xo3`. -/
theorem cnt_later (c : Dev nD) (i : grid0.Coords) (a1 : Memref sig .tc .vmem S2048x512 .f32) (h1 : a1.IsWhole)
    (a2 : Memref sig .tc .vmem S2048x1 .i32) (h2 : a2.IsWhole) (a3 : Memref sig .tc .vmem S1000x512 .f32) (h3 : a3.IsWhole)
    (a4 : Memref sig .tc .vmem S1x1000 .f32) (h4 : a4.IsWhole) (hc : ¬cond0_0 i)
    (x0 : Vec F S2048x512 .f32) (x1 : Vec F S2048x1 .i32) (xo2 : Vec F S1000x512 .f32) (xo3 : Vec F S1x1000 .f32) :
    out0_B_3 c i a1 h1 a2 h2 a3 h3 a4 h4 hc x0 x1 xo2 xo3 = k0_pay5 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h2.read_unread, h4.read_unread, View.ld_unit_zero (S := S2048x1) hz,
    View.ld_unit_zero (S := S1x1000) hz]

/-- The first point leaves in the class-sum accumulator the block's contribution added to the cleared accumulator. -/
theorem sum_first (c : Dev nD) (i : grid0.Coords) (a1 : Memref sig .tc .vmem S2048x512 .f32) (h1 : a1.IsWhole)
    (a2 : Memref sig .tc .vmem S2048x1 .i32) (h2 : a2.IsWhole) (a3 : Memref sig .tc .vmem S1000x512 .f32) (h3 : a3.IsWhole)
    (a4 : Memref sig .tc .vmem S1x1000 .f32) (h4 : a4.IsWhole) (hc : cond0_0 i)
    (x0 : Vec F S2048x512 .f32) (x1 : Vec F S2048x1 .i32) :
    out0_A_2 c i a1 h1 a2 h2 a3 h3 a4 h4 hc x0 x1 = k0_pay4 x0 x1 k0_pay1 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1000x512) hz, View.readCov_unit_zero (S := S1000x512) _ hz]
  simp only [View.readAt_eq_ld, h1.read_unread, h2.read_unread, View.ld_unit_zero (S := S2048x512) hz,
    View.ld_unit_zero (S := S2048x1) hz]

/-- The first point leaves in the class-count accumulator the block's counts added to the cleared accumulator. -/
theorem cnt_first (c : Dev nD) (i : grid0.Coords) (a1 : Memref sig .tc .vmem S2048x512 .f32) (h1 : a1.IsWhole)
    (a2 : Memref sig .tc .vmem S2048x1 .i32) (h2 : a2.IsWhole) (a3 : Memref sig .tc .vmem S1000x512 .f32) (h3 : a3.IsWhole)
    (a4 : Memref sig .tc .vmem S1x1000 .f32) (h4 : a4.IsWhole) (hc : cond0_0 i)
    (x0 : Vec F S2048x512 .f32) (x1 : Vec F S2048x1 .i32) :
    out0_A_3 c i a1 h1 a2 h2 a3 h3 a4 h4 hc x0 x1 = k0_pay5 x1 k0_pay2 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1000) hz, View.readCov_unit_zero (S := S1x1000) _ hz]
  simp only [View.readAt_eq_ld, h2.read_unread, View.ld_unit_zero (S := S2048x1) hz]

end Cert.KernelPieces

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBlocks.lean ====
/-
  The blocks the kernel reads, as rows of the argument arrays.

  The grid has 64 points. Point t reads rows 2048·t … 2048·t + 2047 of the feature matrix, all 512 columns, and the same
  rows of the label column; the label column is the label vector laid out as one column. So entry (r, k) of point t's
  feature block is the matrix's entry (2048·t + r, k), and entry r of its label block is label 2048·t + r.
-/
import proofs.«170232_j34806414967394_1_alg».proof.Proof.Gen.KernelIdeal.Frame
import proofs.«170232_j34806414967394_1_alg».proof.Proof.LibKeepdims
import Idealize.ShloMosaic.PureOps.Ideal
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelBlocks

open Cert.KernelIdeal Cert.KernelIdeal.Gen

variable (m : (ℓ : Loc nD τ sig) → Buf (Elt Ideal) ℓ)

/-- The feature matrix as launched. -/
abbrev feats (c : Dev nD) : Vec Ideal S131072x512 .f32 := m ((c : Thread nD τ).loc main_arg0)
/-- The label vector as launched. -/
abbrev labels (c : Dev nD) : Vec Ideal S131072 .i32 := m ((c : Thread nD τ).loc main_arg1)
/-- Point `t`'s block of features. -/
abbrev fblk (c : Dev nD) (t : Fin cfg0.N) : Vec Ideal S2048x512 .f32 := iblk m c 0 t
/-- Point `t`'s block of labels. -/
abbrev lblk (c : Dev nD) (t : Fin cfg0.N) : Vec Ideal S2048x1 .i32 := iblk m c 1 t

/-- Both input windows step down the rows with the point and stay at column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The label column the region finds is the label vector laid out as one column. -/
theorem labelColumn (c : Dev nD) :
    (V m c main_v0 : S131072x1.Idx → BitVec 32) = shapeCast S131072x1 (labels m c) shapeCasts_S131072_S131072x1 := by
  show StableHlo.after hostOps0 (fun b => m (c, b)) (Proc.devRef .tc main_v0) = _
  after_results
  rfl

/-- Entry (r, k) of point `t`'s feature block is the matrix's entry (2048·t + r, k). -/
theorem fblk_apply (c : Dev nD) (t : Fin cfg0.N) (r : Fin 2048) (k : Fin 512) (h : 2048 * t.val + r.val < 131072) :
    fblk m c t (ix2 r k) = feats m c (ix2 ⟨2048 * t.val + r.val, h⟩ k) := by
  show V m c main_arg0 (((cfg0.win 0).blk t).view.emb (ix2 r k)) = _
  rw [V_main_arg0]
  obtain ⟨e0, e1, -, -⟩ := idx_facts t
  refine congrArg (m ((c : Thread nD τ).loc main_arg0)) (funext fun a => Fin.ext ?_)
  match a with
  | ⟨0, _⟩ => show win0_0.index t (0 : Fin 2) * 2048 + 1 * r.val = 2048 * t.val + r.val; omega
  | ⟨1, _⟩ => show win0_0.index t (1 : Fin 2) * 512 + 1 * k.val = k.val; omega

/-- Entry r of point `t`'s label block is label 2048·t + r. -/
theorem lblk_apply (c : Dev nD) (t : Fin cfg0.N) (r : Fin 2048) (h : 2048 * t.val + r.val < 131072) :
    lblk m c t (ix2 r (0 : Fin 1)) = labels m c (ix1 ⟨2048 * t.val + r.val, h⟩) := by
  show V m c main_v0 (((cfg0.win 1).blk t).view.emb (ix2 r (0 : Fin 1))) = _
  obtain ⟨-, -, e0, e1⟩ := idx_facts t
  have hi : ((cfg0.win 1).blk t).view.emb (ix2 r (0 : Fin 1)) = ix2 (⟨2048 * t.val + r.val, h⟩ : Fin 131072) (0 : Fin 1) := by
    funext a; apply Fin.ext
    match a with
    | ⟨0, _⟩ => show win0_1.index t (0 : Fin 2) * 2048 + 1 * r.val = 2048 * t.val + r.val; omega
    | ⟨1, _⟩ => show win0_1.index t (1 : Fin 2) * 1 + 1 * 0 = 0; omega
  rw [hi, labelColumn, shapeCast_a_a1_apply]

end Cert.KernelBlocks

end
-- ==== Proof.KernelAccum.lean ====
/-
  The two accumulators after each grid point, and the result arrays after the last.

  After point n the class-sum accumulator holds, at (a, d), the sum over the rows of blocks 0 … n that carry label a of
  their normalised entries in column d, and the class-count accumulator holds at a the number of those rows: the first
  point starts from cleared accumulators, every later point adds its block to what the point before left, and the rows
  of blocks 0 … n are the rows below 2048·(n + 1). After the last point (n = 63) these are all 131072 rows, so the
  accumulators hold the class sums and the class counts; only that point writes them back, and what it writes is each
  whole result array.
-/
import proofs.«170232_j34806414967394_1_alg».proof.Proof.Gen.KernelIdeal.Frame
import proofs.«170232_j34806414967394_1_alg».proof.Proof.ClassStats
import proofs.«170232_j34806414967394_1_alg».proof.Proof.KernelPayload
import proofs.«170232_j34806414967394_1_alg».proof.Proof.KernelPieces
import proofs.«170232_j34806414967394_1_alg».proof.Proof.KernelBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelAccum

open Cert.KernelIdeal Cert.KernelIdeal.Gen Cert.ClassStats Cert.KernelBlocks

variable (m : (ℓ : Loc nD τ sig) → Buf (Elt Ideal) ℓ)

theorem rows_lt (t : Fin cfg0.N) (r : Fin 2048) : 2048 * t.val + r.val < 131072 := by
  have hN : t.val < 64 := lt_of_lt_of_eq t.isLt (show cfg0.N = 64 from N_0)
  have := r.isLt
  omega

/-- What block `t` adds to class `a`'s sum at column `d`: the terms of its 2048 rows. -/
theorem blockSum (c : Dev nD) (t : Fin cfg0.N) (a : Fin 1000) (d : Fin 512) :
    (∑ r : Fin 2048, if ((lblk m c t) (ix2 r (0 : Fin 1))).toInt = (a.val : ℤ) then unitEntry (fblk m c t) r d else 0)
      = ∑ r : Fin 2048, rowTerm (feats m c) (labels m c) a.val d (2048 * t.val + r.val) := by
  refine Finset.sum_congr rfl fun r _ => ?_
  have h := rows_lt t r
  unfold rowTerm
  rw [dif_pos h, lblk_apply m c t r h]
  refine if_congr Iff.rfl ?_ rfl
  exact unitEntry_congr _ _ r ⟨2048 * t.val + r.val, h⟩ (fun k => fblk_apply m c t r k h) d

/-- What block `t` adds to class `a`'s count. -/
theorem blockCnt (c : Dev nD) (t : Fin cfg0.N) (a : Fin 1000) :
    (∑ r : Fin 2048, if ((lblk m c t) (ix2 r (0 : Fin 1))).toInt = (a.val : ℤ) then (1 : EReal) else 0)
      = ∑ r : Fin 2048, cntTerm (labels m c) a.val (2048 * t.val + r.val) := by
  refine Finset.sum_congr rfl fun r _ => ?_
  have h := rows_lt t r
  unfold cntTerm
  rw [dif_pos h, lblk_apply m c t r h]

/-- After point `n` the class-sum accumulator holds the terms of the rows below 2048·(n + 1). -/
theorem sums_at (c : Dev nD) : ∀ (n : ℕ) (hn : n < cfg0.N) (a : Fin 1000) (d : Fin 512),
    (outsAt0 m c n hn).1 (ix2 a d) = ∑ i ∈ Finset.range (2048 * (n + 1)), rowTerm (feats m c) (labels m c) a.val d i
  | 0, hn, a, d => by
    rw [outsAt0_A m c ⟨0, hn⟩ rfl]
    dsimp only
    refine (congrFun (Cert.KernelPieces.sum_first (F := Ideal) c (grid0.coords ⟨0, hn⟩) (ms0_0 ⟨0, hn⟩) (hs0_0 ⟨0, hn⟩)
      (ms0_1 ⟨0, hn⟩) (hs0_1 ⟨0, hn⟩) (ms0_2 ⟨0, hn⟩) (hs0_2 ⟨0, hn⟩) (ms0_3 ⟨0, hn⟩) (hs0_3 ⟨0, hn⟩)
      ((hcond0_0 ⟨0, hn⟩).mpr (Nat.zero_mod _)) (fblk m c ⟨0, hn⟩) (lblk m c ⟨0, hn⟩)) (ix2 a d)).trans ?_
    rw [Cert.KernelBody.pay4_apply, Cert.KernelBody.pay1_apply, zero_add, blockSum m c ⟨0, hn⟩ a d, sum_stretch_zero]
  | n + 1, hn, a, d => by
    have hN : cfg0.N = 64 := N_0
    have hB : ¬(⟨n + 1, hn⟩ : Fin cfg0.N).val % 64 = 0 := by dsimp only; omega
    rw [outsAt0_B m c ⟨n + 1, hn⟩ hB]
    dsimp only
    refine (congrFun (Cert.KernelPieces.sum_later (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (fblk m c ⟨n + 1, hn⟩) (lblk m c ⟨n + 1, hn⟩)
      (outsAt0 m c n (Nat.lt_of_succ_lt hn)).1 (outsAt0 m c n (Nat.lt_of_succ_lt hn)).2) (ix2 a d)).trans ?_
    rw [Cert.KernelBody.pay4_apply, blockSum m c ⟨n + 1, hn⟩ a d, sum_stretch_succ, sums_at c n (Nat.lt_of_succ_lt hn) a d]

/-- After point `n` the class-count accumulator holds the count terms of the rows below 2048·(n + 1). -/
theorem cnts_at (c : Dev nD) : ∀ (n : ℕ) (hn : n < cfg0.N) (a : Fin 1000),
    (outsAt0 m c n hn).2 (ix2 (0 : Fin 1) a) = ∑ i ∈ Finset.range (2048 * (n + 1)), cntTerm (labels m c) a.val i
  | 0, hn, a => by
    rw [outsAt0_A m c ⟨0, hn⟩ rfl]
    dsimp only
    refine (congrFun (Cert.KernelPieces.cnt_first (F := Ideal) c (grid0.coords ⟨0, hn⟩) (ms0_0 ⟨0, hn⟩) (hs0_0 ⟨0, hn⟩)
      (ms0_1 ⟨0, hn⟩) (hs0_1 ⟨0, hn⟩) (ms0_2 ⟨0, hn⟩) (hs0_2 ⟨0, hn⟩) (ms0_3 ⟨0, hn⟩) (hs0_3 ⟨0, hn⟩)
      ((hcond0_0 ⟨0, hn⟩).mpr (Nat.zero_mod _)) (fblk m c ⟨0, hn⟩) (lblk m c ⟨0, hn⟩)) (ix2 (0 : Fin 1) a)).trans ?_
    rw [Cert.KernelBody.pay5_apply, Cert.KernelBody.pay2_apply, zero_add, blockCnt m c ⟨0, hn⟩ a, sum_stretch_zero]
  | n + 1, hn, a => by
    have hN : cfg0.N = 64 := N_0
    have hB : ¬(⟨n + 1, hn⟩ : Fin cfg0.N).val % 64 = 0 := by dsimp only; omega
    rw [outsAt0_B m c ⟨n + 1, hn⟩ hB]
    dsimp only
    refine (congrFun (Cert.KernelPieces.cnt_later (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (fblk m c ⟨n + 1, hn⟩) (lblk m c ⟨n + 1, hn⟩)
      (outsAt0 m c n (Nat.lt_of_succ_lt hn)).1 (outsAt0 m c n (Nat.lt_of_succ_lt hn)).2) (ix2 (0 : Fin 1) a)).trans ?_
    rw [Cert.KernelBody.pay5_apply, blockCnt m c ⟨n + 1, hn⟩ a, sum_stretch_succ, cnts_at c n (Nat.lt_of_succ_lt hn) a]

/-! ## After the last point -/

theorem last_lt : (63 : ℕ) < cfg0.N := by rw [show cfg0.N = 64 from N_0]; decide

/-- The last point. -/
abbrev lastPt : Fin cfg0.N := ⟨63, last_lt⟩

/-- After the last point the class-sum accumulator holds the class sums. -/
theorem last_sums (c : Dev nD) : (outsAt0 m c 63 last_lt).1 = classSum (feats m c) (labels m c) := by
  funext j
  obtain ⟨a, d, rfl⟩ : ∃ (a : Fin 1000) (d : Fin 512), j = ix2 a d := ⟨j 0, j 1, eq_ix2 j⟩
  rw [sums_at m c 63 last_lt a d]
  exact sum_rowTerm (feats m c) (labels m c) a d

/-- After the last point the class-count accumulator holds the class counts, as one row. -/
theorem last_cnts (c : Dev nD) (a : Fin 1000) :
    (outsAt0 m c 63 last_lt).2 (ix2 (0 : Fin 1) a) = classCnt (C := 1000) (labels m c) (ix1 a) := by
  rw [cnts_at m c 63 last_lt a]
  exact sum_cntTerm (labels m c) a

/-- Both result windows sit at block (0, 0) at every point: each block is its whole array. -/
theorem out_idx_facts : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The one write-back of the class sums, at the last point, writes the class sums over the whole result array. -/
theorem flushed_sums (c : Dev nD) (t : Fin cfg0.N) (hf : (cfg0.win 2).flush t = true) :
    (dats m 0 c).flushed 2 t = ((cfg0.win 2).blk t).view.read (Elt Ideal) (classSum (feats m c) (labels m c)) := by
  have hN : cfg0.N = 64 := N_0
  have h63 : t.val = 63 := by have := (flush0_2 t).mp hf; have := t.isLt; omega
  obtain rfl : t = lastPt := Fin.ext h63
  show (cfg0.win 2).cut (grid0.coords lastPt) ((dats m 0 c).after 2 lastPt) = _
  rw [after0_2, last_sums]
  obtain ⟨e0, e1, -, -⟩ := out_idx_facts lastPt
  have hz' : (fun a => win0_2.index lastPt a * main_v1_0.ty.shape.size a) = fun _ => 0 := funext fun a => by
    match a with
    | ⟨0, _⟩ => show win0_2.index lastPt (0 : Fin 2) * 1000 = 0; omega
    | ⟨1, _⟩ => show win0_2.index lastPt (1 : Fin 2) * 512 = 0; omega
  exact (Memref.read_access_unit_zero (Elt Ideal) main_v1_0 hz' (fun a => by rw [congrFun hz' a]; simp) _).symm

/-- An index of the class-sum array is in a point's block when each coordinate is in the block's range. -/
theorem mem_blk_sums (t : Fin cfg0.N) (i : S1000x512.Idx) :
    i ∈ ((cfg0.win 2).blk t).view.set ↔ ∀ a : Fin 2, win0_2.index t a * S1000x512.size a ≤ (i a).val
      ∧ (i a).val < win0_2.index t a * S1000x512.size a + S1000x512.size a := by
  show i ∈ ((View.whole main_v1_0).slice (win0_2.rect t)).set ↔ _
  rw [View.set_slice_whole, Rect.mem_set_unit]
  exact Iff.rfl

/-- The class-sum array after the run holds the class sums. -/
theorem final_sums (c : Dev nD) : (dats m 0 c).arrAt 2 cfg0.N = classSum (feats m c) (labels m c) :=
  (dats m 0 c).arrAt_eq_of_cover 2 _ (flushed_sums m c) fun i => ⟨lastPt, (flush0_2 lastPt).mpr rfl, by
    rw [mem_blk_sums]
    obtain ⟨e0, e1, -, -⟩ := out_idx_facts lastPt
    have h0 : (i 0).val < 1000 := (i 0).isLt
    have h1 : (i 1).val < 512 := (i 1).isLt
    intro a
    match a with
    | ⟨0, _⟩ => show win0_2.index lastPt (0 : Fin 2) * 1000 ≤ (i 0).val ∧ (i 0).val < win0_2.index lastPt (0 : Fin 2) * 1000 + 1000; omega
    | ⟨1, _⟩ => show win0_2.index lastPt (1 : Fin 2) * 512 ≤ (i 1).val ∧ (i 1).val < win0_2.index lastPt (1 : Fin 2) * 512 + 512; omega⟩

/-- The one write-back of the class counts, at the last point, writes the last accumulator over the whole row. -/
theorem flushed_cnts (c : Dev nD) (t : Fin cfg0.N) (hf : (cfg0.win 3).flush t = true) :
    (dats m 0 c).flushed 3 t = ((cfg0.win 3).blk t).view.read (Elt Ideal) (outsAt0 m c 63 last_lt).2 := by
  have hN : cfg0.N = 64 := N_0
  have h63 : t.val = 63 := by have := (flush0_3 t).mp hf; have := t.isLt; omega
  obtain rfl : t = lastPt := Fin.ext h63
  show (cfg0.win 3).cut (grid0.coords lastPt) ((dats m 0 c).after 3 lastPt) = _
  rw [after0_3]
  obtain ⟨-, -, e0, e1⟩ := out_idx_facts lastPt
  have hz' : (fun a => win0_3.index lastPt a * main_v1_1.ty.shape.size a) = fun _ => 0 := funext fun a => by
    match a with
    | ⟨0, _⟩ => show win0_3.index lastPt (0 : Fin 2) * 1 = 0; omega
    | ⟨1, _⟩ => show win0_3.index lastPt (1 : Fin 2) * 1000 = 0; omega
  exact (Memref.read_access_unit_zero (Elt Ideal) main_v1_1 hz' (fun a => by rw [congrFun hz' a]; simp) _).symm

theorem mem_blk_cnts (t : Fin cfg0.N) (i : S1x1000.Idx) :
    i ∈ ((cfg0.win 3).blk t).view.set ↔ ∀ a : Fin 2, win0_3.index t a * S1x1000.size a ≤ (i a).val
      ∧ (i a).val < win0_3.index t a * S1x1000.size a + S1x1000.size a := by
  show i ∈ ((View.whole main_v1_1).slice (win0_3.rect t)).set ↔ _
  rw [View.set_slice_whole, Rect.mem_set_unit]
  exact Iff.rfl

/-- The class-count array after the run is the last accumulator: at (0, a) the class count of a. -/
theorem final_cnts (c : Dev nD) (a : Fin 1000) :
    (dats m 0 c).arrAt 3 cfg0.N (ix2 (0 : Fin 1) a) = classCnt (C := 1000) (labels m c) (ix1 a) := by
  rw [(dats m 0 c).arrAt_eq_of_cover 3 _ (flushed_cnts m c) fun i => ⟨lastPt, (flush0_3 lastPt).mpr rfl, by
    rw [mem_blk_cnts]
    obtain ⟨-, -, e0, e1⟩ := out_idx_facts lastPt
    have h0 : (i 0).val < 1 := (i 0).isLt
    have h1 : (i 1).val < 1000 := (i 1).isLt
    intro b
    match b with
    | ⟨0, _⟩ => show win0_3.index lastPt (0 : Fin 2) * 1 ≤ (i 0).val ∧ (i 0).val < win0_3.index lastPt (0 : Fin 2) * 1 + 1; omega
    | ⟨1, _⟩ => show win0_3.index lastPt (1 : Fin 2) * 1000 ≤ (i 1).val ∧ (i 1).val < win0_3.index lastPt (1 : Fin 2) * 1000 + 1000; omega⟩]
  exact last_cnts m c a

end Cert.KernelAccum

end
-- ==== Proof.KernelValue.lean ====
/-
  The kernel program's result as a function of its arguments.

  The region leaves the class sums and the class counts of the launched features and labels in its two result arrays
  and writes no other argument; the lines after it compute the loss from them. So the program ends with the loss of the
  class sums and class counts of its first two arguments and of its other five arguments, all seven unchanged.
-/
import proofs.«170232_j34806414967394_1_alg».proof.Proof.KernelTail
import proofs.«170232_j34806414967394_1_alg».proof.Proof.KernelAccum
import Idealize.ShloMosaic.Lib.ValueLayout

noncomputable section

open Idealize.ShloMosaic Idealize.ShloMosaic.TcCoe Idealize.SL.Sem Idealize.ShloMosaic.ValueIdx

namespace Cert.KernelValue

open Cert.KernelIdeal Cert.KernelIdeal.Gen Cert.ClassStats Cert.KernelBlocks Cert.KernelTail

variable (m : (ℓ : Loc nD τ sig) → Buf (Elt Ideal) ℓ) (ρ : Dev nD → PrngReg)

/-- The lines after the region find the class sums in the first result array. -/
theorem found_sums (c : Dev nD) : found m c (Proc.devRef .tc main_v1_0) = classSum (feats m c) (labels m c) :=
  (Pipeline.withArrays_arr spec0 launch0.win.arr_inj c _ _ 2).trans (Cert.KernelAccum.final_sums m c)

/-- They find the class counts, as one row, in the second; laid out as a vector it is the class counts. -/
theorem found_cnts (c : Dev nD) :
    shapeCast S1000 (found m c (Proc.devRef .tc main_v1_1)) shapeCasts_S1x1000_S1000 = classCnt (labels m c) := by
  funext j
  obtain ⟨a, rfl⟩ : ∃ a : Fin 1000, j = ix1 a := ⟨j 0, eq_ix1 j⟩
  rw [shapeCast_1a_a_apply, show found m c (Proc.devRef .tc main_v1_1) = (dats m 0 c).arrAt 3 cfg0.N from
    Pipeline.withArrays_arr spec0 launch0.win.arr_inj c _ _ 3]
  exact Cert.KernelAccum.final_cnts m c a

theorem found_arg2 (c : Dev nD) : found m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem found_arg3 (c : Dev nD) : found m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem found_arg4 (c : Dev nD) : found m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem found_arg5 (c : Dev nD) : found m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem found_arg6 (c : Dev nD) : found m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

/-- The program's result: the loss of the class sums and class counts of the launched features and labels. -/
abbrev result (c : Dev nD) : Buf (Elt Ideal) ((c : Thread nD τ).loc main_v43) :=
  Cert.LossTail.loss (F := Ideal) (classSum (feats m c) (labels m c)) (classCnt (labels m c))
    (m ((c : Thread nD τ).loc main_arg2)) (m ((c : Thread nD τ).loc main_arg3)) (m ((c : Thread nD τ).loc main_arg4))
    (m ((c : Thread nD τ).loc main_arg5)) (m ((c : Thread nD τ).loc main_arg6))

theorem tail_result (c : Dev nD) :
    Pipeline.afterTail₀ cfgs (dats m) 0 (V0 m) [hostOps1, hostOps1_1, hostOps1_2, hostOps1_3, hostOps1_4] c main_v43 = result m c := by
  rw [Cert.KernelTail.result_eq, found_sums, found_cnts, found_arg2, found_arg3, found_arg4, found_arg5, found_arg6]

/-- Every weakly fair execution ends with the result at that loss and the seven arguments as launched. -/
theorem run : θ_run defs (onTc (τ := τ) (main (F := Ideal))) ⟨m, fun _ => 0, ρ⟩ fun r => ∀ c : Dev nD,
      r.2.mem ((c.tc : Thread nD τ).loc main_v43) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v43 (Pipeline.mem_restRefs_of main_v43 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelValue

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.LibScatterVec.lean ====
/-
  A vector scatter-add read at an index. A `stablehlo.scatter` with an `add` body whose operand is a vector of
  length `M`, whose scatter indices are one column `[E, 1]` of positions and whose updates are a vector of length `E`
  (a segment sum of a vector) adds update `e` onto the operand position that index word `e` names, the word read
  signed: position `r` of the result is the operand's plus the sum of the updates whose word reads `r`. A word outside
  `[0, M)` names no position and its update is dropped.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

/-- The dimension numbers of a vector scatter: the updates have no window axis, the operand's one axis is inserted
    and is the axis the single index component names, the index vector lies along axis 1 of the indices. -/
abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

/-- Update `e` reads its start index at row `e` of the index column. -/
private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

/-- The window on the operand's axis starts at update `e`'s index word, read signed. -/
private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

/-- The operand's axis is inserted: the window coordinate there is 0. -/
private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

/-- Update `e` lands on operand position `r` exactly when its index word reads `r`. -/
theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

/-- THE VECTOR SCATTER-ADD AT `r`: the operand's element plus the updates whose index word reads `r`. -/
theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.RefSums.lean ====
/-
  The reference's two segment sums are the class sums and the class counts.

  The reference first divides every row of the feature matrix by its Euclidean norm, the norm floored at a small
  positive constant: entry (n, d) becomes X(n, d) / max(√(Σₖ X(n, k)²), floor). It then adds, with one scatter whose
  body is an addition, each normalised row onto the row of a zero matrix that the row's label names, and with a second
  such scatter a one onto the position of a zero vector that the label names. Read at an index, a scatter-add into
  zeros is the sum of the updates whose index word names that index: so entry (a, d) of the first result is the sum of
  the normalised entries (n, d) over the rows n labelled a, and entry a of the second is the number of those rows.
  A label outside the class range names no row and no position, and its row is in neither.
-/
import proofs.«170232_j34806414967394_1_alg».proof.Proof.RefRead
import proofs.«170232_j34806414967394_1_alg».proof.Proof.ClassStats
import proofs.«170232_j34806414967394_1_alg».proof.Proof.LibSegmentSum
import proofs.«170232_j34806414967394_1_alg».proof.Proof.LibScatterVec
import Idealize.ShloMosaic.Lib.ValueIdx
import Idealize.ShloMosaic.PureOps.Ideal.Laws
import Idealize.ShloMosaic.Lib.IdealHost
noncomputable section
namespace Cert.RefSums
open Idealize.ShloMosaic Idealize.ShloMosaic.ValueIdx Cert.ReferenceIdeal Cert.ReferenceIdeal.Gen Cert.ReferenceIdeal.Read Cert.ClassStats
open scoped BigOperators

/-! ## Index equations: the composed index functions of the layout operations, at coordinates -/

/-- The norm column is broadcast along the row: element (n, d) of the divisor reads the column at (n, 0). -/
theorem idx_divisor (n : Fin 131072) (d : Fin 512) : idx_main_v3 (ix2 n d) = ix2 n (0 : Fin 1) :=
  funext fun a => Fin.ext (by match a with | ⟨0, _⟩ => rfl | ⟨1, _⟩ => rfl)

/-- The column of squared norms at (n, 0) reads the vector of squared norms at n. -/
theorem idx_normColumn (n : Fin 131072) : idx_main_call0_v2 (ix2 n (0 : Fin 1)) = ix1 n :=
  funext fun a => Fin.ext (by match a with | ⟨0, _⟩ => rfl)

/-- Term k of row n's sum of squares reads the matrix of squares at (n, k). -/
theorem idx_squares (n : Fin 131072) (k : Fin 512) : idx_main_call0_v1 (ix1 n) k = ix2 n k :=
  funext fun a => Fin.ext (by match a with | ⟨0, _⟩ => rfl | ⟨1, _⟩ => rfl)

/-- The label column of the first scatter at (e, 0) reads label e. -/
theorem idx_labelColumn (e : Fin 131072) : idx_main_v6 (ix2 e (0 : Fin 1)) = ix1 e :=
  funext fun a => Fin.ext (by match a with | ⟨0, _⟩ => rfl)

/-- The label column of the second scatter at (e, 0) reads label e. -/
theorem idx_labelColumn' (e : Fin 131072) : idx_main_v10 (ix2 e (0 : Fin 1)) = ix1 e :=
  funext fun a => Fin.ext (by match a with | ⟨0, _⟩ => rfl)

/-! ## The normalised matrix -/

/-- Entry (n, d) of the reference's normalised matrix is X(n, d) over the floored norm of row n. -/
theorem normalised_apply (x0 : (⟨S131072x512, .f32⟩ : BufTy).Contents (Elt Ideal)) (n : Fin 131072) (d : Fin 512) :
    val_main_v4 (F := Ideal) x0 (ix2 n d) = unitEntry x0 n d := by
  rw [val_main_v4_apply, val_main_v3_apply, idx_divisor, val_main_v2_apply, val_main_v0_apply, val_main_call0_v2_apply,
    idx_normColumn, val_main_call0_v1_apply, val_main_v1_apply, val_main_cst_apply, val_main_call0_cst_apply]
  simp only [idx_squares, val_main_call0_v0_apply, Ideal.hostDivf_def, Ideal.hostUnary_sqrt_def, Ideal.maximumf_def,
    Ideal.mulf_def, Ideal.ofBits_def, Ideal.ofBits_zero_f32, zero_add]
  rfl

/-! ## The two operands every scatter starts from and reads its positions from -/

/-- The first scatter's operand is the zero matrix. -/
theorem zeroMatrix_apply (i : S1000x512.Idx) : val_main_v5 (F := Ideal) i = (0 : EReal) := by
  rw [val_main_v5_apply, val_main_cst_0_apply, Ideal.ofBits_def, Ideal.ofBits_zero_f32]

/-- The second scatter's operand is the zero vector. -/
theorem zeroVector_apply (i : S1000.Idx) : val_main_v9 (F := Ideal) i = (0 : EReal) := by
  rw [val_main_v9_apply, val_main_cst_2_apply, Ideal.ofBits_def, Ideal.ofBits_zero_f32]

/-- The first scatter's index column at (e, 0) is label e. -/
theorem labelColumn_apply (x1 : (⟨S131072, .i32⟩ : BufTy).Contents (Elt Ideal)) (e : Fin 131072) :
    val_main_v6 (F := Ideal) x1 (ix2 e (0 : Fin 1)) = x1 (ix1 e) := by
  rw [val_main_v6_apply, idx_labelColumn]

/-- The second scatter's index column at (e, 0) is label e. -/
theorem labelColumn'_apply (x1 : (⟨S131072, .i32⟩ : BufTy).Contents (Elt Ideal)) (e : Fin 131072) :
    val_main_v10 (F := Ideal) x1 (ix2 e (0 : Fin 1)) = x1 (ix1 e) := by
  rw [val_main_v10_apply, idx_labelColumn']

/-- The second scatter's updates are all one. -/
theorem ones_apply (i : S131072.Idx) : val_main_v8 (F := Ideal) i = (1 : EReal) := by
  rw [val_main_v8_apply, val_main_cst_1_apply, Ideal.ofBits_def, Ideal.ofBits_one_f32]

/-! ## The two segment sums -/

/-- The reference's first segment sum is the class sums: entry (a, d) adds the normalised entries (n, d) of the rows
    labelled a. -/
theorem classSum_eq (x0 : (⟨S131072x512, .f32⟩ : BufTy).Contents (Elt Ideal)) (x1 : (⟨S131072, .i32⟩ : BufTy).Contents (Elt Ideal)) :
    val_main_v7 (F := Ideal) x0 x1 = classSum x0 x1 := by
  funext j
  obtain ⟨a, d, rfl⟩ : ∃ (a : Fin 1000) (d : Fin 512), j = ix2 a d := ⟨j 0, j 1, eq_ix2 j⟩
  unfold val_main_v7
  show Ideal.hostScatterAdd
      (Cert.LibSegmentSum.rowScatterDims 1000 512 131072 Facts₀.scatter_S1000x512_S131072x1_S131072x512_1_0_0_1_wf)
      (val_main_v5 (F := Ideal)) (val_main_v6 (F := Ideal) x1) (val_main_v4 (F := Ideal) x0) (ix2 a d) = _
  rw [Cert.LibSegmentSum.rowScatterAdd_apply, zeroMatrix_apply, zero_add]
  unfold classSum
  refine Finset.sum_congr rfl fun e _ => ?_
  rw [labelColumn_apply, normalised_apply]

/-- The reference's second segment sum is the class counts: entry a counts the rows labelled a. -/
theorem classCnt_eq (x1 : (⟨S131072, .i32⟩ : BufTy).Contents (Elt Ideal)) :
    val_main_v11 (F := Ideal) x1 = classCnt x1 := by
  funext j
  obtain ⟨a, rfl⟩ : ∃ a : Fin 1000, j = ix1 a := ⟨j 0, eq_ix1 j⟩
  unfold val_main_v11
  show Ideal.hostScatterAdd
      (Cert.LibScatterVec.vecScatterDims 1000 131072 Facts₀.scatter_S1000_S131072x1_S131072_n_0_0_1_wf)
      (val_main_v9 (F := Ideal)) (val_main_v10 (F := Ideal) x1) (val_main_v8 (F := Ideal)) (ix1 a) = _
  rw [Cert.LibScatterVec.vecScatterAdd_apply, zeroVector_apply, zero_add]
  unfold classCnt
  refine Finset.sum_congr rfl fun e _ => ?_
  rw [labelColumn'_apply, ones_apply]

end Cert.RefSums

end
-- ==== Proof.RefValue.lean ====
/-
  The reference program's result as a function of its arguments.

  The reference normalises the rows, takes the two segment sums, which are the class sums and the class counts, and
  goes on to the loss exactly as the kernel program does after its region.
-/
import proofs.«170232_j34806414967394_1_alg».proof.Proof.RefRead
import proofs.«170232_j34806414967394_1_alg».proof.Proof.RefSums
import proofs.«170232_j34806414967394_1_alg».proof.Proof.LossTail

noncomputable section

open Idealize.ShloMosaic Idealize.ShloMosaic.TcCoe Idealize.SL.Sem

namespace Cert.RefValue

open Cert.ReferenceIdeal Cert.ReferenceIdeal.Gen Cert.ReferenceIdeal.Read Cert.ClassStats

variable {F : FTy → Type} [FloatOps F]

set_option maxRecDepth 8192 in
/-- The last stage is the loss of the two segment sums. -/
theorem stage_eq (x0 : (⟨S131072x512, .f32⟩ : BufTy).Contents (Elt F)) (x1 : (⟨S131072, .i32⟩ : BufTy).Contents (Elt F))
    (x2 : (⟨S100, .i32⟩ : BufTy).Contents (Elt F)) (x3 x4 : (⟨S1000x512, .f32⟩ : BufTy).Contents (Elt F))
    (x5 x6 : (⟨S1000, .f32⟩ : BufTy).Contents (Elt F)) :
    val_main_v52 (F := F) x0 x1 x2 x3 x4 x5 x6
      = Cert.LossTail.loss (F := F) (val_main_v7 (F := F) x0 x1) (val_main_v11 (F := F) x1) x2 x3 x4 x5 x6 := rfl

/-- The reference's result is the loss of the class sums and class counts of its first two arguments. -/
theorem result_eq (m : (ℓ : Loc nD τ sig) → Buf (Elt Ideal) ℓ) (c : Dev nD) :
    Cert.ReferenceIdeal.Value.res_main_v52 m c
      = Cert.LossTail.loss (F := Ideal)
          (classSum (m ((c.tc : Thread nD τ).loc main_arg0)) (m ((c.tc : Thread nD τ).loc main_arg1)))
          (classCnt (m ((c.tc : Thread nD τ).loc main_arg1)))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [val_main_v52_eq, stage_eq, Cert.RefSums.classSum_eq, Cert.RefSums.classCnt_eq]

end Cert.RefValue

end
-- ==== Proof.lean ====
/-
  Per-class means of unit-normalised features against two tables of prototypes: the kernel program and its reference
  compute the same loss over the extended reals.

  The mathematics. Every row of the feature matrix (131072 rows of width 512) is divided by its Euclidean norm, the norm
  floored at the single-precision number nearest 10⁻¹². Class a (of 1000) collects the rows whose label is a: the class
  sum adds their normalised rows, the class count counts them; a label outside 0 … 999 names no class. From the class
  sums and class counts both programs compute the loss by the same operations (the class means, their mean squared
  errors against the two prototype tables, the classes that count, the weighted sum).

  The kernel takes the class sums 2048 rows at a time: for each block it forms the 0/1 matrix "row r has label a" and
  multiplies its transpose with the block of normalised rows, which over the extended reals is the sum over the block's
  rows with label a; it adds the 0/1 matrix's column sums to the counts; and it accumulates both over the 64 blocks,
  starting from zero. Addition of extended reals is commutative and associative, so the total over the blocks is the
  sum over all rows, whatever the order, and no entry need be finite for that. The reference takes the same two sums as
  segment sums: each row's update is added to the class its label names and dropped when it names none.

  The three programs run and leave their arguments unchanged; the idealized kernel differs from the kernel by two
  round trips through a narrower float format, which are the identity on extended reals.
-/
import proofs.«170232_j34806414967394_1_alg».proof.Defs
import proofs.«170232_j34806414967394_1_alg».proof.Proof.Gen.Kernel
import proofs.«170232_j34806414967394_1_alg».proof.Proof.Gen.Kernel.Skeleton
import proofs.«170232_j34806414967394_1_alg».proof.Proof.Gen.Kernel.Launch
import proofs.«170232_j34806414967394_1_alg».proof.Proof.Gen.Kernel.Points
import proofs.«170232_j34806414967394_1_alg».proof.Proof.Gen.Kernel.Frame
import proofs.«170232_j34806414967394_1_alg».proof.Proof.Gen.KernelIdeal
import proofs.«170232_j34806414967394_1_alg».proof.Proof.Gen.KernelIdeal.Skeleton
import proofs.«170232_j34806414967394_1_alg».proof.Proof.Gen.KernelIdeal.Launch
import proofs.«170232_j34806414967394_1_alg».proof.Proof.Gen.KernelIdeal.Points
import proofs.«170232_j34806414967394_1_alg».proof.Proof.Gen.KernelIdeal.Frame
import proofs.«170232_j34806414967394_1_alg».proof.Proof.Gen.ReferenceIdeal
import proofs.«170232_j34806414967394_1_alg».proof.Proof.Gen.Pre_finite_inputs
import proofs.«170232_j34806414967394_1_alg».proof.Proof.RefRun
import proofs.«170232_j34806414967394_1_alg».proof.Proof.KernelValue
import proofs.«170232_j34806414967394_1_alg».proof.Proof.RefValue
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two round trips through the narrower format are the identity on extended reals. -/
theorem preserves : Cert.preserves_Kernel_KernelIdeal :=
  ⟨IdealRules.truncf_extf.statement Cert.KernelIdeal.S2048x1000 .f32 .bf16,
    IdealRules.truncf_extf.statement Cert.KernelIdeal.S1x1000 .f32 .bf16⟩

/-- From arguments that agree, both programs end with the loss of the class sums and class counts of the features and
    labels and of the other five arguments. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.RefValue.result_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
